-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x5120 : Shape := ⟨2, ![2048, 5120]⟩
abbrev S5120x17408 : Shape := ⟨2, ![5120, 17408]⟩
abbrev S_ : Shape := ⟨0, ![]⟩

class Facts : Prop where
  bitsLt_bf16_f32 : FTy.bits .bf16 < FTy.bits .f32
  bcast_S_S2048x5120 : S_.BroadcastsInDim S2048x5120 (![] : Fin 0 → Fin S2048x5120.rank)
  reducesTo_S2048x5120_S_d0_1 : S2048x5120.ReducesTo [0, 1] S_
  h_S_ : 0 < S_.numel
  bcast_S_S5120x17408 : S_.BroadcastsInDim S5120x17408 (![] : Fin 0 → Fin S5120x17408.rank)
  reducesTo_S5120x17408_S_d0_1 : S5120x17408.ReducesTo [0, 1] S_

variable [Facts]

def fn {F : FTy → Type} [FloatOps F] (main_arg0 : FVec F S2048x5120 .bf16) (main_arg1 : FVec F S5120x17408 .bf16) : IVec S_ 1 :=
  let main_v0 : FVec F S2048x5120 .f32 := (extf .f32 · bitsLt_bf16_f32) main_arg0
  let main_v1 : FVec F S2048x5120 .f32 := Host.absf main_v0
  let main_cst : FVec F S_ .f32 := constant S_ .f32 0x7F800000#32
  let main_v2 : FVec F S2048x5120 .f32 := broadcastInDim S2048x5120 ![] bcast_S_S2048x5120 main_cst
  let main_v3 : IVec S2048x5120 1 := cmpf .olt main_v1 main_v2
  let main_c : IVec S_ 1 := constantI S_ 1 1#1
  let main_v4 : IVec S_ 1 := (fun x v => Host.reduce IntOp.andi x v reducesTo_S2048x5120_S_d0_1 h_S_) main_v3 main_c
  let main_v5 : FVec F S5120x17408 .f32 := (extf .f32 · bitsLt_bf16_f32) main_arg1
  let main_v6 : FVec F S5120x17408 .f32 := Host.absf main_v5
  let main_cst_0 : FVec F S_ .f32 := constant S_ .f32 0x7F800000#32
  let main_v7 : FVec F S5120x17408 .f32 := broadcastInDim S5120x17408 ![] bcast_S_S5120x17408 main_cst_0
  let main_v8 : IVec S5120x17408 1 := cmpf .olt main_v6 main_v7
  let main_c_1 : IVec S_ 1 := constantI S_ 1 1#1
  let main_v9 : IVec S_ 1 := (fun x v => Host.reduce IntOp.andi x v reducesTo_S5120x17408_S_d0_1 h_S_) main_v8 main_c_1
  let main_v10 : IVec S_ 1 := andi main_v4 main_v9
  main_v10
-- ==== Kernel.lean ====
abbrev S2048x5120 : Shape := ⟨2, ![2048, 5120]⟩
abbrev S5120x17408 : Shape := ⟨2, ![5120, 17408]⟩
abbrev S2048x17408 : Shape := ⟨2, ![2048, 17408]⟩
abbrev S512x1280 : Shape := ⟨2, ![512, 1280]⟩
abbrev S1280x1024 : Shape := ⟨2, ![1280, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x5120, .bf16⟩
  | .hbm, ⟨1, _⟩ => ⟨S5120x17408, .bf16⟩
  | .hbm, ⟨2, _⟩ => ⟨S2048x17408, .bf16⟩
  | .local _ .vmem, ⟨0, _⟩ => ⟨S512x1280, .bf16⟩
  | .local _ .vmem, ⟨1, _⟩ => ⟨S512x1280, .bf16⟩
  | .local _ .vmem, ⟨2, _⟩ => ⟨S1280x1024, .bf16⟩
  | .local _ .vmem, ⟨3, _⟩ => ⟨S1280x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S2048x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 17, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1280x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x1280_S512x1280_0_0 : ∀ a, (![0, 0] : Fin 2 → Nat) a + S512x1280.size a ≤ S512x1280.size a
  h_S512x1280 : 0 < S512x1280.numel
  inb_S1280x1024_S1280x1024_0_0 : ∀ a, (![0, 0] : Fin 2 → Nat) a + S1280x1024.size a ≤ S1280x1024.size a
  h_S1280x1024 : 0 < S1280x1024.numel
  bitsLt_bf16_f32 : FTy.bits .bf16 < FTy.bits .f32
  packedbf16_S512x1024_S512x1024_0_0 : (Rect.unit (s := S512x1024) ![0, 0] S512x1024.size inb_S512x1024_S512x1024_0_0).PackedRows (EltTy.packing .bf16)
  dot_S512x1280_S1280x1024_S512x1024_1_0_0_1_n_n_wf : DotDims.WF S512x1280 S1280x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1280.size a ≤ S2048x5120.size a
  hwx0_0 : ∀ i : grid0.Coords, EltTy.bits .bf16 = 32 ∨ (Rect.block (s := S2048x5120) S512x1280.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x1024.size a ≤ S5120x17408.size a
  hwx0_1 : ∀ i : grid0.Coords, EltTy.bits .bf16 = 32 ∨ (Rect.block (s := S5120x17408) S1280x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S2048x17408.size a
  hwx0_2 : ∀ i : grid0.Coords, EltTy.bits .bf16 = 32 ∨ (Rect.block (s := S2048x17408) S512x1024.size (cc0_transform_2 i) (hinb0_2 i)).WholeWords (EltTy.packing .bf16)

variable [Facts₀]

def dot_S512x1280_S1280x1024_S512x1024_1_0_0_1_n_n : DotDims S512x1280 S1280x1024 S512x1024 where
  lhsContracting := [1]
  rhsContracting := [0]
  lhsNonContracting := [0]
  rhsNonContracting := [1]
  lhsBatch := []
  rhsBatch := []
  wf := dot_S512x1280_S1280x1024_S512x1024_1_0_0_1_n_n_wf

abbrev win0_0 : Pipeline.Window sig grid0 :=
  Pipeline.Window.ofSpec (Memref.whole main_arg0) S512x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1280x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2048x5120 : Shape := ⟨2, ![2048, 5120]⟩
abbrev S5120x17408 : Shape := ⟨2, ![5120, 17408]⟩
abbrev S2048x17408 : Shape := ⟨2, ![2048, 17408]⟩

abbrev nBuf : Space → Nat
  | .hbm => 4
  | .vmem => 0
  | .smem => 0
  | _ => 0

abbrev bufTy : (tb : Table) → Fin (tcTables nBuf tb) → BufTy
  | .hbm, ⟨0, _⟩ => ⟨S2048x5120, .bf16⟩
  | .hbm, ⟨1, _⟩ => ⟨S5120x17408, .bf16⟩
  | .hbm, ⟨2, _⟩ => ⟨S2048x17408, .f32⟩
  | .hbm, ⟨3, _⟩ => ⟨S2048x17408, .bf16⟩
  | _, _ => ⟨S2048x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  bitsLt_bf16_f32 : FTy.bits .bf16 < FTy.bits .f32
  dot_S2048x5120_S5120x17408_S2048x17408_1_0_0_1_n_n_wf : DotDims.WF S2048x5120 S5120x17408 S2048x17408 [1] [0] [0] [1] [] []

variable [Facts₀]

def dot_S2048x5120_S5120x17408_S2048x17408_1_0_0_1_n_n : DotDims S2048x5120 S5120x17408 S2048x17408 where
  lhsContracting := [1]
  rhsContracting := [0]
  lhsNonContracting := [0]
  rhsNonContracting := [1]
  lhsBatch := []
  rhsBatch := []
  wf := dot_S2048x5120_S5120x17408_S2048x17408_1_0_0_1_n_n_wf

class Facts : Prop extends Facts₀ where

variable [Facts]
-- ==== Proof.Pieces.lean ====
/-
  What one grid point leaves behind, case by case, as the body's arithmetic.

  The body keeps a [512, 1024] accumulator between points. At the first point of a run along the contraction axis it
  stores zero and then adds the point's block product; at every later point it adds the block product to what the point
  before left; at the last point it also stores the accumulator, narrowed, into the output block. Each statement below
  reads the stores the body's run found back as one term over the values the point loaded.
-/
import proofs.«123769_j2078764171688_1_alg».proof.Proof.Gen.KernelIdeal.Frame
import Idealize.ShloMosaic.Lib.Pipeline.Value
import Idealize.ShloMosaic.Lib.Tactic

set_option maxRecDepth 16384

noncomputable section

namespace Cert.KernelIdeal.Acc

open Cert.KernelIdeal Cert.KernelIdeal.Gen Idealize.ShloMosaic Idealize.ShloMosaic.TcCoe Idealize.ShloMosaic.Tactic Idealize.SL.Sem

variable {F : FTy → Type} [FloatOps F]

theorem hz : (![0, 0] : Fin 2 → Nat) = fun _ => 0 := by
  funext a; match a with | ⟨0, _⟩ => rfl | ⟨1, _⟩ => rfl

/-- First point of a run: the accumulator ends at zero plus the block product. -/
theorem scratch_A (c : Dev nD) (i : grid0.Coords) (arg3 : Memref sig .tc .vmem S512x1280 .bf16) (harg3 : arg3.IsWhole) (arg4 : Memref sig .tc .vmem S1280x1024 .bf16) (harg4 : arg4.IsWhole) (arg5 : Memref sig .tc .vmem S512x1024 .bf16) (harg5 : arg5.IsWhole) (arg6 : Memref sig .tc .vmem S512x1024 .f32) (harg6 : arg6.IsWhole) (hc0 : cond0_0 i) (hc1 : ¬cond0_1 i)
    (x0 : Vec F S512x1280 .bf16) (x1 : Vec F S1280x1024 .bf16) :
    sout0_A_0 c i arg3 harg3 arg4 harg4 arg5 harg5 arg6 harg6 hc0 hc1 x0 x1 = k0_pay2 (k0_pay1 (F := F)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S512x1024) hz, View.readCov_unit_zero (S := S512x1024) _ hz]
  simp only [View.readAt_eq_ld, harg6.read_unread, harg3.read_unread, harg4.read_unread, View.ld_unit_zero (S := S512x1024) hz, View.ld_unit_zero (S := S512x1280) hz, View.ld_unit_zero (S := S1280x1024) hz]

/-- A middle point: the accumulator ends at what the point before left plus the block product. -/
theorem scratch_B (c : Dev nD) (i : grid0.Coords) (arg3 : Memref sig .tc .vmem S512x1280 .bf16) (harg3 : arg3.IsWhole) (arg4 : Memref sig .tc .vmem S1280x1024 .bf16) (harg4 : arg4.IsWhole) (arg5 : Memref sig .tc .vmem S512x1024 .bf16) (harg5 : arg5.IsWhole) (arg6 : Memref sig .tc .vmem S512x1024 .f32) (harg6 : arg6.IsWhole) (hc0 : ¬cond0_0 i) (hc1 : ¬cond0_1 i)
    (x0 : Vec F S512x1280 .bf16) (x1 : Vec F S1280x1024 .bf16) (xs0 : Vec F S512x1024 .f32) :
    sout0_B_0 c i arg3 harg3 arg4 harg4 arg5 harg5 arg6 harg6 hc0 hc1 x0 x1 xs0 = k0_pay2 xs0 x0 x1 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_unit_zero hz]
  simp only [View.readAt_eq_ld, harg6.read_unread, harg3.read_unread, harg4.read_unread, View.ld_unit_zero (S := S512x1024) hz, View.ld_unit_zero (S := S512x1280) hz, View.ld_unit_zero (S := S1280x1024) hz]

/-- The last point of a run: the accumulator as at a middle point, -/
theorem scratch_C (c : Dev nD) (i : grid0.Coords) (arg3 : Memref sig .tc .vmem S512x1280 .bf16) (harg3 : arg3.IsWhole) (arg4 : Memref sig .tc .vmem S1280x1024 .bf16) (harg4 : arg4.IsWhole) (arg5 : Memref sig .tc .vmem S512x1024 .bf16) (harg5 : arg5.IsWhole) (arg6 : Memref sig .tc .vmem S512x1024 .f32) (harg6 : arg6.IsWhole) (hc0 : ¬cond0_0 i) (hc1 : cond0_1 i)
    (x0 : Vec F S512x1280 .bf16) (x1 : Vec F S1280x1024 .bf16) (xs0 : Vec F S512x1024 .f32) :
    sout0_C_0 c i arg3 harg3 arg4 harg4 arg5 harg5 arg6 harg6 hc0 hc1 x0 x1 xs0 = k0_pay2 xs0 x0 x1 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero hz]
  simp only [View.readAt_eq_ld, harg6.read_unread, harg3.read_unread, harg4.read_unread, View.ld_unit_zero (S := S512x1024) hz, View.ld_unit_zero (S := S512x1280) hz, View.ld_unit_zero (S := S1280x1024) hz]

/-- and the output block is that accumulator, narrowed. -/
theorem out_C (c : Dev nD) (i : grid0.Coords) (arg3 : Memref sig .tc .vmem S512x1280 .bf16) (harg3 : arg3.IsWhole) (arg4 : Memref sig .tc .vmem S1280x1024 .bf16) (harg4 : arg4.IsWhole) (arg5 : Memref sig .tc .vmem S512x1024 .bf16) (harg5 : arg5.IsWhole) (arg6 : Memref sig .tc .vmem S512x1024 .f32) (harg6 : arg6.IsWhole) (hc0 : ¬cond0_0 i) (hc1 : cond0_1 i)
    (x0 : Vec F S512x1280 .bf16) (x1 : Vec F S1280x1024 .bf16) (xs0 : Vec F S512x1024 .f32) :
    out0_C_2 c i arg3 harg3 arg4 harg4 arg5 harg5 arg6 harg6 hc0 hc1 x0 x1 xs0 = k0_pay3 (k0_pay2 xs0 x0 x1) := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero hz]
  simp only [View.readCov_unit_zero (S := S512x1024) _ hz, View.readAt_eq_ld, harg6.read_unread, harg3.read_unread, harg4.read_unread, View.ld_unit_zero (S := S512x1024) hz, View.ld_unit_zero (S := S512x1280) hz, View.ld_unit_zero (S := S1280x1024) hz]

end Cert.KernelIdeal.Acc

end
-- ==== Proof.LibOuterDot.lean ====
/-
  Two readings at an index, for any sizes, at the ideal values.

  * A block u of shape [R, n] and a block x of shape [R, m], each given a unit axis, broadcast against each other to
    [R, n, m], multiplied and flattened to [R, n·m]: entry (p, k) is u(p, k / m) · x(p, k % m) — the row-wise
    Kronecker product.
  * A matrix product [M, K] × [K, N] into a zero accumulator: entry (p, q) is Σ over k < K of A(p, k) · B(k, q), a sum
    over Fin K, given where the dimension numbers send an output index and a contraction index.
-/
import Idealize.ShloMosaic.Lib.ValueIdx
import Idealize.ShloMosaic.Lib.Pipeline.Value
import Idealize.ShloMosaic.PureOps.Ideal.Laws

noncomputable section

open scoped BigOperators

namespace Cert.LibOuterDot

open Idealize.ShloMosaic Idealize.ShloMosaic.ValueIdx

/-- The row-wise Kronecker product read at (p, k): u at column k / m times x at column k % m. -/
theorem outer_flat_apply (R n m N : ℕ) (hn : 1 < n) (hm : 1 < m) (hN : N = n * m)
    (u : (⟨2, ![R, n]⟩ : Shape).Idx → EReal) (x : (⟨2, ![R, m]⟩ : Shape).Idx → EReal)
    (h1 : (⟨2, ![R, n]⟩ : Shape).ShapeCasts ⟨3, ![R, n, 1]⟩)
    (h2 : (⟨2, ![R, m]⟩ : Shape).ShapeCasts ⟨3, ![R, 1, m]⟩)
    (h3 : (⟨3, ![R, n, 1]⟩ : Shape).Broadcasts ⟨3, ![R, n, m]⟩)
    (h4 : (⟨3, ![R, 1, m]⟩ : Shape).Broadcasts ⟨3, ![R, n, m]⟩)
    (h5 : (⟨3, ![R, n, m]⟩ : Shape).ShapeCasts ⟨2, ![R, N]⟩)
    (p : Fin R) (k : Fin N) (a : Fin n) (b : Fin m) (ha : a.val = k.val / m) (hb : b.val = k.val % m) :
    shapeCast ⟨2, ![R, N]⟩ (mulf (F := Ideal) (φ := .f32)
        (broadcastTo ⟨3, ![R, n, m]⟩ (shapeCast ⟨3, ![R, n, 1]⟩ u h1) h3)
        (broadcastTo ⟨3, ![R, n, m]⟩ (shapeCast ⟨3, ![R, 1, m]⟩ x h2) h4)) h5 (ix2 p k)
      = u (ix2 p a) * x (ix2 p b) := by
  subst hN
  refine (shapeCast_apply _ h5 (ix2 p k) (ix3 p a b) ?_).trans ?_
  · rw [Shape.rowMajor_val_three, Shape.rowMajor_val_two]
    show (p.val * n + a.val) * m + b.val = p.val * (n * m) + k.val
    have e : k.val / m * m + k.val % m = k.val := Nat.div_add_mod' _ _
    rw [ha, hb, Nat.add_mul, Nat.mul_assoc, Nat.add_assoc, e]
  · rw [mulf_apply]
    congr 1
    · refine (broadcastTo_apply _ h3 (ix3 p a b) (ix3 p a (0 : Fin 1)) ?_).trans ?_
      · intro ax
        match ax with
        | ⟨0, _⟩ =>
          show p.val = if R = 1 then 0 else p.val
          split
          · have := p.isLt; omega
          · rfl
        | ⟨1, _⟩ =>
          show a.val = if n = 1 then 0 else a.val
          rw [if_neg (by omega)]
        | ⟨2, _⟩ => rfl
      · refine shapeCast_apply u h1 _ (ix2 p a) ?_
        rw [Shape.rowMajor_val_three, Shape.rowMajor_val_two]
        show p.val * n + a.val = (p.val * n + a.val) * 1 + 0
        omega
    · refine (broadcastTo_apply _ h4 (ix3 p a b) (ix3 p (0 : Fin 1) b) ?_).trans ?_
      · intro ax
        match ax with
        | ⟨0, _⟩ =>
          show p.val = if R = 1 then 0 else p.val
          split
          · have := p.isLt; omega
          · rfl
        | ⟨1, _⟩ => rfl
        | ⟨2, _⟩ =>
          show b.val = if m = 1 then 0 else b.val
          rw [if_neg (by omega)]
      · refine shapeCast_apply x h2 _ (ix2 p b) ?_
        rw [Shape.rowMajor_val_three, Shape.rowMajor_val_two]
        show p.val * m + b.val = (p.val * 1 + 0) * m + b.val
        rw [Nat.mul_one, Nat.add_zero]

/-- With no batch axes and one free axis a on the left, the left operand's index has the output's coordinate b there,
    b the first output axis. -/
theorem lhs_free_val {sl sr so : Shape} (d : DotDims sl sr so) (a : Fin sl.rank) (b : Fin so.rank)
    (hlb : d.lhsBatch = []) (hln : d.lhsNonContracting = [a]) (hb : b.val = 0) (j : so.Idx) (k : d.contr.Idx) :
    (d.lhsIdx j k a).val = (j b).val := by
  have hnb : a ∉ d.lhsBatch := by rw [hlb]; exact List.not_mem_nil
  have hmn : a ∈ d.lhsNonContracting := by rw [hln]; exact List.mem_singleton.mpr rfl
  unfold DotDims.lhsIdx
  rw [dif_neg hnb, dif_pos hmn]
  simp only [Fin.val_cast]
  have key : ∀ (p q : Nat) (hp : p < so.rank) (hq : q < so.rank), p = q → (j ⟨p, hp⟩).val = (j ⟨q, hq⟩).val :=
    fun p q hp hq h => by subst h; rfl
  exact key _ _ _ b.isLt (by simp [hlb, hln, hb])

/-- With no batch axes, one free axis on the left and one free axis a on the right, the right operand's index has the
    output's coordinate b there, b the second output axis. -/
theorem rhs_free_val {sl sr so : Shape} (d : DotDims sl sr so) (a : Fin sr.rank) (b : Fin so.rank) (a' : Fin sl.rank)
    (hlb : d.lhsBatch = []) (hrb : d.rhsBatch = []) (hln : d.lhsNonContracting = [a']) (hrn : d.rhsNonContracting = [a])
    (hb : b.val = 1) (j : so.Idx) (k : d.contr.Idx) :
    (d.rhsIdx j k a).val = (j b).val := by
  have hnb : a ∉ d.rhsBatch := by rw [hrb]; exact List.not_mem_nil
  have hmn : a ∈ d.rhsNonContracting := by rw [hrn]; exact List.mem_singleton.mpr rfl
  unfold DotDims.rhsIdx
  rw [dif_neg hnb, dif_pos hmn]
  simp only [Fin.val_cast]
  have key : ∀ (p q : Nat) (hp : p < so.rank) (hq : q < so.rank), p = q → (j ⟨p, hp⟩).val = (j ⟨q, hq⟩).val :=
    fun p q hp hq h => by subst h; rfl
  exact key _ _ _ b.isLt (by simp [hlb, hln, hrn, hb])

/-- A matrix product into the zero accumulator read at (p, q), given where the dimension numbers send the indices:
    the sum over k < K of A(p, k) · B(k, q). -/
theorem matmul_zero_ix2_of {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (l0 : ∀ i q, (d.lhsIdx i q 0).val = (i 0).val) (l1 : ∀ i q, (d.lhsIdx i q 1).val = (q ⟨0, by omega⟩).val)
    (r0 : ∀ i q, (d.rhsIdx i q 0).val = (q ⟨0, by omega⟩).val) (r1 : ∀ i q, (d.rhsIdx i q 1).val = (i 1).val)
    (prec : Option ContractPrecision) (A : FVec Ideal ⟨2, ![M, K]⟩ φ₁) (B : FVec Ideal ⟨2, ![K, N]⟩ φ₂) (p : Fin M) (q : Fin N) :
    matmul d prec A B (constant ⟨2, ![M, N]⟩ .f32 0x00000000#32) (ix2 p q) = ∑ k : Fin K, A (ix2 p k) * B (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact l0 _ _
    | ⟨1, _⟩ => exact (l1 _ _).trans hk)
  have er : d.rhsIdx (ix2 p q) ((contrEquiv1 d K hr hs).symm k) = ix2 k q := funext fun a => Fin.ext (by
    match a with
    | ⟨0, _⟩ => exact (r0 _ _).trans hk
    | ⟨1, _⟩ => exact r1 _ _)
  rw [el, er]

/-- A plain matrix product — left operand contracted on its second axis, right on its first, no batch axes — into
    the zero accumulator, read at (p, q): the sum over k < K of A(p, k) · B(k, q). -/
theorem matmul_zero_ix2 {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂) (p : Fin M) (q : Fin N) :
    matmul d prec A B (constant ⟨2, ![M, N]⟩ .f32 0x00000000#32) (ix2 p q) = ∑ k : Fin K, A (ix2 p k) * B (ix2 k q) :=
  matmul_zero_ix2_of d hr hs
    (fun i q => lhs_free_val d 0 0 hlb hln rfl i q)
    (fun i q => d.lhsIdx_val_of_single hlc i q)
    (fun i q => d.rhsIdx_val_of_single hrc i q)
    (fun i q => rhs_free_val d 1 1 0 hlb hrb hln hrn rfl i q)
    prec A B p q

end Cert.LibOuterDot

end
-- ==== Proof.Payload.lean ====
/-
  The body's arithmetic at one entry, over the extended reals.

  The reset value is zero everywhere. The update at (r, s) is the accumulator's entry plus the sum over l < 1280 of
  x(r, l) · w(l, s), the block product's entry: the matrix unit into a zero accumulator is that plain sum. Narrowing the
  accumulator to the output's format changes nothing over the extended reals.
-/
import proofs.«123769_j2078764171688_1_alg».proof.Proof.Gen.KernelIdeal.Skeleton
import proofs.«123769_j2078764171688_1_alg».proof.Proof.LibOuterDot
import Idealize.ShloMosaic.Lib.ValueIdx
import Idealize.ShloMosaic.Lib.Pipeline.Value
import Idealize.ShloMosaic.PureOps.Ideal.Laws

noncomputable section

open scoped BigOperators

namespace Cert.KernelIdeal.Acc

open Cert.KernelIdeal Cert.KernelIdeal.Gen Idealize.ShloMosaic Idealize.ShloMosaic.ValueIdx

/-- The reset value is zero at every entry. -/
theorem reset_apply (j : S512x1024.Idx) : k0_pay1 (F := Ideal) j = 0 := by
  unfold k0_pay1
  refine (congrFun (shapeCast_self _ _) j).trans ?_
  exact Ideal.ofBits_zero_f32

/-- The update at (r, s): the accumulator's entry plus the block product's. -/
theorem update_apply (acc : Vec Ideal S512x1024 .f32) (x : Vec Ideal S512x1280 .bf16) (w : Vec Ideal S1280x1024 .bf16)
    (r : Fin 512) (s : Fin 1024) :
    k0_pay2 (F := Ideal) acc x w (ix2 r s) = acc (ix2 r s) + ∑ l : Fin 1280, x (ix2 r l) * w (ix2 l s) := by
  unfold k0_pay2
  refine (congrFun (shapeCast_self _ _) (ix2 r s)).trans ?_
  refine (addf_apply _ _ _).trans ?_
  exact congrArg (fun z => acc (ix2 r s) + z)
    (Cert.LibOuterDot.matmul_zero_ix2 dot_S512x1280_S1280x1024_S512x1024_1_0_0_1_n_n rfl rfl rfl rfl rfl rfl rfl rfl none x w r s)

/-- Narrowing is the identity over the extended reals. -/
theorem narrow_eq (v : Vec Ideal S512x1024 .f32) : k0_pay3 (F := Ideal) v = v := rfl

end Cert.KernelIdeal.Acc

end
-- ==== Proof.Spec.lean ====
/-
  The product matrix, and the one law this certificate rests on.

  For X of shape [2048, 5120] and W of shape [5120, 17408] over the extended reals, the product matrix has at (p, q) the
  sum over kk < 5120 of X(p, kk) · W(kk, q). Splitting the contraction axis into 4 consecutive stretches of 1280 writes
  the same sum as a sum over the stretches a < 4 of the partial sums over l < 1280 at kk = 1280·a + l: addition on the
  extended reals is commutative and associative, so no finiteness is asked of the entries.
-/
import Idealize.ShloMosaic.Lib.ValueIdx

noncomputable section

open scoped BigOperators

namespace Cert.MatSpec

open Idealize.ShloMosaic Idealize.ShloMosaic.ValueIdx

abbrev SX : Shape := ⟨2, ![2048, 5120]⟩
abbrev SW : Shape := ⟨2, ![5120, 17408]⟩
abbrev SO : Shape := ⟨2, ![2048, 17408]⟩

/-- The product matrix X · W, entry by entry. -/
def prod (X : SX.Idx → EReal) (W : SW.Idx → EReal) : SO.Idx → EReal :=
  fun i => ∑ kk : Fin 5120, X (ix2 (i 0) kk) * W (ix2 kk (i 1))

theorem prod_apply (X : SX.Idx → EReal) (W : SW.Idx → EReal) (p : Fin 2048) (q : Fin 17408) :
    prod X W (ix2 p q) = ∑ kk : Fin 5120, X (ix2 p kk) * W (ix2 kk q) := rfl

/-- A sum over an axis of A·B entries, cut into A consecutive stretches of B: stretch a holds the entries l + B·a. -/
theorem sum_stretches {β : Type*} [AddCommMonoid β] (A B : ℕ) (f : Fin (A * B) → β) :
    ∑ kk, f kk = ∑ a : Fin A, ∑ l : Fin B, f (finProdFinEquiv (a, l)) := by
  rw [← Equiv.sum_comp finProdFinEquiv f, Fintype.sum_prod_type]

/-- The contraction over 5120 entries as four partial sums over 1280, the stretches counted by a natural below 4:
    g a l is the term at kk = 1280·a + l. -/
theorem sum_four_stretches {β : Type*} [AddCommMonoid β] (f : Fin 5120 → β) (g : ℕ → Fin 1280 → β)
    (hg : ∀ (a : ℕ) (l : Fin 1280) (h : 1280 * a + l.val < 5120), a < 4 → g a l = f ⟨1280 * a + l.val, h⟩) :
    ∑ a ∈ Finset.range 4, ∑ l : Fin 1280, g a l = ∑ kk : Fin 5120, f kk := by
  rw [Finset.sum_range, sum_stretches 4 1280 f]
  refine Finset.sum_congr rfl fun a _ => Finset.sum_congr rfl fun l _ => ?_
  have hlt : 1280 * a.val + l.val < 5120 := by have := a.isLt; have := l.isLt; omega
  rw [hg a.val l hlt a.isLt]
  congr 1
  apply Fin.ext
  show 1280 * a.val + l.val = l.val + 1280 * a.val
  omega

end Cert.MatSpec

end
-- ==== Proof.Fold.lean ====
/-
  The accumulator after every grid point, and the output block it becomes.

  The grid is 4 × 17 × 4 in row-major order: point t has row block t / 68, column block (t / 4) % 17 and contraction
  stretch t % 4. At point t the first input's block is rows 512·(t / 68) + r and columns 1280·(t % 4) + l of X, the second
  input's block rows 1280·(t % 4) + l and columns 1024·((t / 4) % 17) + s of W. The four points of a run 4·q … 4·q + 3 share
  their row and column blocks and walk the four stretches, so the accumulator after the run's last point is the sum over
  the four stretches of the block products, which is the product matrix's entry (the law of the specification).
-/
import proofs.«123769_j2078764171688_1_alg».proof.Proof.Gen.KernelIdeal.Value
import proofs.«123769_j2078764171688_1_alg».proof.Proof.Pieces
import proofs.«123769_j2078764171688_1_alg».proof.Proof.Payload
import proofs.«123769_j2078764171688_1_alg».proof.Proof.Spec
import Idealize.ShloMosaic.Lib.Pipeline.Value
import Idealize.ShloMosaic.Lib.ValueIdx

set_option maxRecDepth 16384

noncomputable section

open scoped BigOperators

namespace Cert.KernelIdeal.Acc

open Cert.KernelIdeal Cert.KernelIdeal.Gen Idealize.ShloMosaic Idealize.ShloMosaic.TcCoe Idealize.SL.Sem
open Idealize.ShloMosaic.ValueIdx
open Idealize.ShloMosaic.Pipeline (Dat)

/-! ## The grid's index maps, decided once -/

theorem idx_facts : ∀ t : Fin cfg0.N,
    win0_0.index t (0 : Fin 2) = t.val / 68 ∧ win0_0.index t (1 : Fin 2) = t.val % 4
    ∧ win0_1.index t (0 : Fin 2) = t.val % 4 ∧ win0_1.index t (1 : Fin 2) = t.val / 4 % 17
    ∧ win0_2.index t (0 : Fin 2) = t.val / 68 ∧ win0_2.index t (1 : Fin 2) = t.val / 4 % 17 :=
  (by decide +kernel : ∀ t : Fin grid0.N, _)

section anyF

variable {F : FTy → Type} [FloatOps F]
variable (m : (ℓ : Loc nD τ sig) → Buf (Elt F) ℓ)

/-- The two input blocks of point t, at their literal shapes. -/
abbrev xblk (c : Dev nD) (t : Fin cfg0.N) : Vec F S512x1280 .bf16 := iblk m c 0 t
abbrev wblk (c : Dev nD) (t : Fin cfg0.N) : Vec F S1280x1024 .bf16 := iblk m c 1 t

/-- Entry (r, l) of the first block at point t is X at row 512·(t / 68) + r, column 1280·(t % 4) + l. -/
theorem xblk_apply (c : Dev nD) (t : Fin cfg0.N) (r : Fin 512) (l : Fin 1280) (P : Fin 2048) (K : Fin 5120)
    (hP : P.val = 512 * (t.val / 68) + r.val) (hK : K.val = 1280 * (t.val % 4) + l.val) :
    xblk m c t (ix2 r l) = m ((c : Thread nD τ).loc main_arg0) (ix2 P K) := by
  obtain ⟨e0, e1, -, -, -, -⟩ := idx_facts t
  show (iblk m c 0 t : Vec F S512x1280 .bf16) (ix2 r l) = _
  unfold iblk
  rw [View.read_apply]
  show V m c main_arg0 _ = m ((c : Thread nD τ).loc main_arg0) _
  unfold V
  congr 1
  funext a
  apply Fin.ext
  match a with
  | ⟨0, _⟩ => show win0_0.index t (0 : Fin 2) * 512 + 1 * r.val = P.val; rw [e0, hP]; omega
  | ⟨1, _⟩ => show win0_0.index t (1 : Fin 2) * 1280 + 1 * l.val = K.val; rw [e1, hK]; omega

/-- Entry (l, s) of the second block at point t is W at row 1280·(t % 4) + l, column 1024·((t / 4) % 17) + s. -/
theorem wblk_apply (c : Dev nD) (t : Fin cfg0.N) (l : Fin 1280) (s : Fin 1024) (K : Fin 5120) (Q : Fin 17408)
    (hK : K.val = 1280 * (t.val % 4) + l.val) (hQ : Q.val = 1024 * (t.val / 4 % 17) + s.val) :
    wblk m c t (ix2 l s) = m ((c : Thread nD τ).loc main_arg1) (ix2 K Q) := by
  obtain ⟨-, -, e2, e3, -, -⟩ := idx_facts t
  show (iblk m c 1 t : Vec F S1280x1024 .bf16) (ix2 l s) = _
  unfold iblk
  rw [View.read_apply]
  show V m c main_arg1 _ = m ((c : Thread nD τ).loc main_arg1) _
  unfold V
  congr 1
  funext a
  apply Fin.ext
  match a with
  | ⟨0, _⟩ => show win0_1.index t (0 : Fin 2) * 1280 + 1 * l.val = K.val; rw [e2, hK]; omega
  | ⟨1, _⟩ => show win0_1.index t (1 : Fin 2) * 1024 + 1 * s.val = Q.val; rw [e3, hQ]; omega

/-- What point n leaves in the accumulator over what the point before left: the update of the reset value at the first
    point of a run, of the previous contents elsewhere. -/
theorem step_eq (c : Dev nD) (n : ℕ) (hb : n < cfg0.N) (acc : Vec F S512x1024 .f32) :
    Value.scAt0_0 m c n hb acc
      = k0_pay2 (if n % 4 = 0 then k0_pay1 (F := F) else acc) (xblk m c ⟨n, hb⟩) (wblk m c ⟨n, hb⟩) := by
  unfold Value.scAt0_0
  by_cases h0 : n % 4 = 0
  · have h1 : ¬ n % 4 = 3 := by omega
    rw [dif_pos h0, dif_neg h1, if_pos h0]
    exact scratch_A c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) _ _ (iblk m c 0 (⟨n, hb⟩ : Fin cfg0.N)) (iblk m c 1 (⟨n, hb⟩ : Fin cfg0.N))
  · rw [dif_neg h0, if_neg h0]
    by_cases h1 : n % 4 = 3
    · rw [dif_pos h1]
      exact scratch_C c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) _ _ (iblk m c 0 (⟨n, hb⟩ : Fin cfg0.N)) (iblk m c 1 (⟨n, hb⟩ : Fin cfg0.N)) acc
    · rw [dif_neg h1]
      exact scratch_B c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) _ _ (iblk m c 0 (⟨n, hb⟩ : Fin cfg0.N)) (iblk m c 1 (⟨n, hb⟩ : Fin cfg0.N)) acc

/-- At the last point of a run the output block is the accumulator, narrowed. -/
theorem out_eq_scratch (c : Dev nD) (t : Fin cfg0.N) (h3 : t.val % 4 = 3) :
    (outsAt0 m c t.val t.isLt).1 = k0_pay3 (outsAt0 m c t.val t.isLt).2 := by
  have h0 : ¬ t.val % 4 = 0 := by omega
  rw [outsAt0_C m c t h0 h3]
  dsimp only
  rw [out_C, scratch_C]

end anyF

/-! ## Over the extended reals: the accumulator as a sum, the output block as the product matrix -/

section ideal

variable (m : (ℓ : Loc nD τ sig) → Buf (Elt Ideal) ℓ)

/-- The two argument arrays, at their literal shapes over the extended reals. -/
abbrev Xarr (c : Dev nD) : MatSpec.SX.Idx → EReal := m ((c : Thread nD τ).loc main_arg0)
abbrev Warr (c : Dev nD) : MatSpec.SW.Idx → EReal := m ((c : Thread nD τ).loc main_arg1)

/-- The block product's entry at point n (zero past the grid, where it is never read). -/
def addend (c : Dev nD) (n : ℕ) (i : S512x1024.Idx) : EReal :=
  if h : n < cfg0.N then ∑ l : Fin 1280, xblk m c ⟨n, h⟩ (ix2 (i 0) l) * wblk m c ⟨n, h⟩ (ix2 l (i 1)) else 0

/-- One point's step at an entry: zero at the first point of a run, the previous entry elsewhere, plus the point's
    block product. -/
theorem step_apply (c : Dev nD) (n : ℕ) (hb : n < cfg0.N) (acc : Vec Ideal S512x1024 .f32) (i : S512x1024.Idx) :
    Value.scAt0_0 m c n hb acc i = (if n % 4 = 0 then 0 else acc i) + addend m c n i := by
  obtain ⟨r, s, rfl⟩ : ∃ (r : Fin 512) (s : Fin 1024), i = ix2 r s := ⟨i 0, i 1, eq_ix2 i⟩
  rw [step_eq]
  refine (update_apply _ _ _ r s).trans ?_
  unfold addend
  rw [dif_pos hb]
  by_cases h0 : n % 4 = 0
  · rw [if_pos h0, if_pos h0, reset_apply]
  · rw [if_neg h0, if_neg h0]

/-- The accumulator after point t: the block products of the run's points up to t, summed. -/
theorem scratch_fold (c : Dev nD) (t : Fin cfg0.N) (i : S512x1024.Idx) :
    (outsAt0 m c t.val t.isLt).2 i = 0 + ∑ a ∈ Finset.range (t.val % 4 + 1), addend m c (4 * (t.val / 4) + a) i := by
  rw [Value.soutsAt0_0_eq]
  refine Pipeline.accAt_add_apply _ _ (fun _ => (0 : EReal)) (addend m c) (4 * (t.val / 4)) 3 ?_ ?_ (t.val % 4) (by omega) _ i
  · intro h j
    rw [step_apply, if_pos (by omega)]
  · intro n h acc j hlt hle
    rw [step_apply, if_neg (by omega)]

/-- At the last point of a run, entry (r, s) of the accumulator is the product matrix's entry at row 512·(t / 68) + r
    and column 1024·((t / 4) % 17) + s: the four stretches of the contraction, summed. -/
theorem block_entry (c : Dev nD) (t : Fin cfg0.N) (h3 : t.val % 4 = 3) (r : Fin 512) (s : Fin 1024) (P : Fin 2048) (Q : Fin 17408)
    (hP : P.val = 512 * (t.val / 68) + r.val) (hQ : Q.val = 1024 * (t.val / 4 % 17) + s.val) :
    (outsAt0 m c t.val t.isLt).2 (ix2 r s) = MatSpec.prod (Xarr m c) (Warr m c) (ix2 P Q) := by
  have hN : cfg0.N = 272 := N_0
  have ht : t.val < 272 := lt_of_lt_of_eq t.isLt hN
  rw [scratch_fold, h3, zero_add, MatSpec.prod_apply]
  refine Eq.trans ?_ (MatSpec.sum_four_stretches
    (fun kk => Xarr m c (ix2 P kk) * Warr m c (ix2 kk Q))
    (fun a l => if h : 4 * (t.val / 4) + a < cfg0.N then xblk m c ⟨_, h⟩ (ix2 r l) * wblk m c ⟨_, h⟩ (ix2 l s) else 0)
    ?_)
  · refine Finset.sum_congr rfl fun a ha => ?_
    have ha4 : a < 4 := Finset.mem_range.mp ha
    have hlt : 4 * (t.val / 4) + a < cfg0.N := lt_of_lt_of_eq (show 4 * (t.val / 4) + a < 272 by omega) hN.symm
    unfold addend
    rw [dif_pos hlt]
    refine Finset.sum_congr rfl fun l _ => ?_
    rw [dif_pos hlt]
  · intro a l h ha4
    have hlt : 4 * (t.val / 4) + a < cfg0.N := lt_of_lt_of_eq (show 4 * (t.val / 4) + a < 272 by omega) hN.symm
    rw [dif_pos hlt]
    rw [xblk_apply m c ⟨_, hlt⟩ r l P ⟨1280 * a + l.val, h⟩
        (by show P.val = 512 * ((4 * (t.val / 4) + a) / 68) + r.val; omega)
        (by show 1280 * a + l.val = 1280 * ((4 * (t.val / 4) + a) % 4) + l.val; omega),
      wblk_apply m c ⟨_, hlt⟩ l s ⟨1280 * a + l.val, h⟩ Q
        (by show 1280 * a + l.val = 1280 * ((4 * (t.val / 4) + a) % 4) + l.val; omega)
        (by show Q.val = 1024 * ((4 * (t.val / 4) + a) / 4 % 17) + s.val; omega)]

/-- The result array: the product matrix of the two argument arrays. -/
def result (c : Dev nD) : Buf (Elt Ideal) ((c : Thread nD τ).loc main_v0) :=
  MatSpec.prod (Xarr m c) (Warr m c)

/-- What a flushing point writes back is its block of the product matrix. -/
theorem flushed_eq (c : Dev nD) (t : Fin cfg0.N) (hf : (cfg0.win 2).flush t = true) :
    (dats m 0 c).flushed 2 t = ((cfg0.win 2).blk t).view.read (Elt Ideal) (result m c) := by
  have h3 : t.val % 4 = 3 := (flush0_2 t).mp hf
  obtain ⟨-, -, -, -, e4, e5⟩ := idx_facts t
  rw [Value.flushed2, out_eq_scratch m c t h3]
  funext j
  rw [View.read_apply]
  show (outsAt0 m c t.val t.isLt).2 j = result m c (((cfg0.win 2).blk t).view.emb j)
  have hj : (j : S512x1024.Idx) = ix2 (j 0) (j 1) := eq_ix2 j
  have hI : (((cfg0.win 2).blk t).view.emb j : S2048x17408.Idx)
      = ix2 ((((cfg0.win 2).blk t).view.emb j : S2048x17408.Idx) 0) ((((cfg0.win 2).blk t).view.emb j : S2048x17408.Idx) 1) := eq_ix2 _
  rw [hI]
  refine (congrArg (outsAt0 m c t.val t.isLt).2 hj).trans ?_
  refine block_entry m c t h3 (j 0) (j 1) _ _ ?_ ?_
  · show win0_2.index t (0 : Fin 2) * 512 + 1 * (j 0).val = 512 * (t.val / 68) + (j 0).val
    rw [e4]; omega
  · show win0_2.index t (1 : Fin 2) * 1024 + 1 * (j 1).val = 1024 * (t.val / 4 % 17) + (j 1).val
    rw [e5]; omega

/-- An index of the result array is in point t's block iff each coordinate is in the block's range on its axis. -/
theorem mem_blk (t : Fin cfg0.N) (i : S2048x17408.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v0).slice (win0_2.rect t)).set ↔ _
  rw [View.set_slice_whole, Rect.mem_set_unit]
  exact Iff.rfl

/-- Every entry (p, q) of the result lies in the block the run of row block p / 512 and column block q / 1024 writes
    back at its last point. -/
theorem cover (i : S2048x17408.Idx) : ∃ t : Fin cfg0.N, (cfg0.win 2).flush t = true ∧ i ∈ ((cfg0.win 2).blk t).view.set := by
  have h0 : (i 0).val < 2048 := (i 0).isLt
  have h1 : (i 1).val < 17408 := (i 1).isLt
  have hN : cfg0.N = 272 := N_0
  have htv : ((i 0).val / 512 * 17 + (i 1).val / 1024) * 4 + 3 < cfg0.N := by rw [hN]; omega
  refine ⟨⟨((i 0).val / 512 * 17 + (i 1).val / 1024) * 4 + 3, htv⟩, (flush0_2 _).mpr (by show (((i 0).val / 512 * 17 + (i 1).val / 1024) * 4 + 3) % 4 = 3; omega), ?_⟩
  rw [mem_blk]
  obtain ⟨-, -, -, -, e4, e5⟩ := idx_facts ⟨((i 0).val / 512 * 17 + (i 1).val / 1024) * 4 + 3, htv⟩
  intro a
  match a with
  | ⟨0, _⟩ =>
    show win0_2.index ⟨((i 0).val / 512 * 17 + (i 1).val / 1024) * 4 + 3, htv⟩ (0 : Fin 2) * 512 ≤ (i 0).val ∧ (i 0).val < win0_2.index ⟨((i 0).val / 512 * 17 + (i 1).val / 1024) * 4 + 3, htv⟩ (0 : Fin 2) * 512 + 512
    rw [e4]
    show (((i 0).val / 512 * 17 + (i 1).val / 1024) * 4 + 3) / 68 * 512 ≤ (i 0).val ∧ (i 0).val < (((i 0).val / 512 * 17 + (i 1).val / 1024) * 4 + 3) / 68 * 512 + 512
    omega
  | ⟨1, _⟩ =>
    show win0_2.index ⟨((i 0).val / 512 * 17 + (i 1).val / 1024) * 4 + 3, htv⟩ (1 : Fin 2) * 1024 ≤ (i 1).val ∧ (i 1).val < win0_2.index ⟨((i 0).val / 512 * 17 + (i 1).val / 1024) * 4 + 3, htv⟩ (1 : Fin 2) * 1024 + 1024
    rw [e5]
    show (((i 0).val / 512 * 17 + (i 1).val / 1024) * 4 + 3) / 4 % 17 * 1024 ≤ (i 1).val ∧ (i 1).val < (((i 0).val / 512 * 17 + (i 1).val / 1024) * 4 + 3) / 4 % 17 * 1024 + 1024
    omega

/-- After the run the result array holds the product matrix. -/
theorem final (c : Dev nD) : (dats m 0 c).arrAt 2 cfg0.N = result m c :=
  (dats m 0 c).arrAt_eq_of_cover 2 (result m c) (fun t hf => flushed_eq m c t hf) cover

/-- The kernel's run: it ends with the product matrix of its arguments in the result array, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end ideal

end Cert.KernelIdeal.Acc

end
-- ==== Proof.RefIsProd.lean ====
/-
  The reference is the product matrix.

  The reference contracts the second axis of X with the first axis of W in one operation and narrows the result. Over
  the extended reals the contraction's entry at (p, q) is the sum over kk < 5120 of X(p, kk) · W(kk, q), and narrowing is
  the identity.
-/
import proofs.«123769_j2078764171688_1_alg».proof.Proof.Gen.ReferenceIdeal.Read
import proofs.«123769_j2078764171688_1_alg».proof.Proof.Spec

noncomputable section

open scoped BigOperators

namespace Cert.ReferenceIdeal.RefValue

open Cert.ReferenceIdeal Cert.ReferenceIdeal.Read Idealize.ShloMosaic Idealize.ShloMosaic.ValueIdx

theorem ref_is_prod (x0 : (⟨S2048x5120, .bf16⟩ : BufTy).Contents (Elt Ideal)) (x1 : (⟨S5120x17408, .bf16⟩ : BufTy).Contents (Elt Ideal)) :
    val_main_v1 (F := Ideal) x0 x1 = MatSpec.prod x0 x1 := by
  funext i
  have el : ∀ k, lidx_main_v0 i k = ix2 (i 0) k := fun k => funext fun a => Fin.ext (by
    match a with
    | ⟨0, _⟩ => rfl
    | ⟨1, _⟩ => rfl)
  have er : ∀ k, ridx_main_v0 i k = ix2 k (i 1) := fun k => funext fun a => Fin.ext (by
    match a with
    | ⟨0, _⟩ => rfl
    | ⟨1, _⟩ => rfl)
  rw [val_main_v1_apply, val_main_v0_apply]
  simp only [el, er, Ideal.truncf_def]
  rfl

end Cert.ReferenceIdeal.RefValue

end
-- ==== Proof.lean ====
/-
  A matrix product tiled over a 4 × 17 × 4 grid against the same product computed in one operation.

  The kernel multiplies X of shape [2048, 5120] by W of shape [5120, 17408]. Grid point (i, j, k) loads rows
  512·i … 512·i + 511 and columns 1280·k … 1280·k + 1279 of X and the matching rows of W at columns 1024·j … 1024·j + 1023,
  and adds their product into a [512, 1024] accumulator that it clears at k = 0 and copies, narrowed, into block (i, j)
  of the result at k = 3. The reference contracts the whole axis of 5120 at once and narrows.

  Over the extended reals narrowing is the identity and both results are, at (p, q), the sum over kk < 5120 of
  X(p, kk) · W(kk, q): the kernel's four partial sums over 1280 are that sum regrouped, which holds in any commutative
  monoid and asks nothing of the entries, so the precondition is never opened. No operation was rewritten between the kernel and its idealization, so the
  idealized kernel is the kernel's own text.

  The modules: the product matrix and the regrouping law; each control case's stores read back as the body's
  arithmetic; that arithmetic at an entry; the accumulator after every point as a sum, the result array as the product
  matrix; the reference as the product matrix.
-/
import proofs.«123769_j2078764171688_1_alg».proof.Defs
import proofs.«123769_j2078764171688_1_alg».proof.Proof.Gen.Kernel
import proofs.«123769_j2078764171688_1_alg».proof.Proof.Gen.Kernel.Frame
import proofs.«123769_j2078764171688_1_alg».proof.Proof.Gen.KernelIdeal
import proofs.«123769_j2078764171688_1_alg».proof.Proof.Gen.KernelIdeal.Frame
import proofs.«123769_j2078764171688_1_alg».proof.Proof.Gen.KernelIdeal.Value
import proofs.«123769_j2078764171688_1_alg».proof.Proof.Gen.ReferenceIdeal
import proofs.«123769_j2078764171688_1_alg».proof.Proof.Gen.ReferenceIdeal.Run
import proofs.«123769_j2078764171688_1_alg».proof.Proof.Gen.ReferenceIdeal.Read
import proofs.«123769_j2078764171688_1_alg».proof.Proof.Gen.Pre_finite_inputs
import proofs.«123769_j2078764171688_1_alg».proof.Proof.Fold
import proofs.«123769_j2078764171688_1_alg».proof.Proof.RefIsProd
import Idealize.ShloMosaic.Adequacy
import Idealize.ShloMosaic.Init

noncomputable section

namespace Cert.Proof

open Idealize.ShloMosaic Idealize.SL.Sem

/-- The kernel as printed terminates without a fault and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealization. -/
theorem preserves : Cert.preserves_Kernel_KernelIdeal := trivial

/-- Both programs end with the product matrix of arguments that agree. -/
theorem algebraic : Cert.algebraic_KernelIdeal_ReferenceIdeal := by
  intro m ρ m' ρ' _ hagree
  refine ⟨fun c => Cert.KernelIdeal.Acc.result m c, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.RefValue.ref_is_prod, (hagree c).1, (hagree c).2]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
